-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x128 .f32) (main_arg3 : FVec F S128 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S2000x64 : Shape := ⟨2, ![2000, 64]⟩
abbrev S2000x128 : Shape := ⟨2, ![2000, 128]⟩
abbrev S1600000x128 : Shape := ⟨2, ![1600000, 128]⟩
abbrev S100000x1 : Shape := ⟨2, ![100000, 1]⟩
abbrev S1x128 : Shape := ⟨2, ![1, 128]⟩
abbrev S2000x1 : Shape := ⟨2, ![2000, 1]⟩
abbrev S1600000x64 : Shape := ⟨2, ![1600000, 64]⟩
abbrev S1x64 : Shape := ⟨2, ![1, 64]⟩

abbrev nBuf : Space → Nat
  | .hbm => 114
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S1x128, .f32⟩
  | .hbm, ⟨59, _⟩ => ⟨S100000x128, .f32⟩
  | .hbm, ⟨60, _⟩ => ⟨S1x1600000, .i32⟩
  | .hbm, ⟨61, _⟩ => ⟨S1600000, .i32⟩
  | .hbm, ⟨62, _⟩ => ⟨S1x1600000, .i32⟩
  | .hbm, ⟨63, _⟩ => ⟨S1600000, .i32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000, .f32⟩
  | .hbm, ⟨92, _⟩ => ⟨S1600000, .f32⟩
  | .hbm, ⟨93, _⟩ => ⟨S100000x64, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1600000x64, .f32⟩
  | .hbm, ⟨103, _⟩ => ⟨S1600000x1, .f32⟩
  | .hbm, ⟨104, _⟩ => ⟨S1600000x64, .f32⟩
  | .hbm, ⟨105, _⟩ => ⟨S1600000x64, .f32⟩
  | .hbm, ⟨106, _⟩ => ⟨S_, .f32⟩
  | .hbm, ⟨107, _⟩ => ⟨S100000x64, .f32⟩
  | .hbm, ⟨108, _⟩ => ⟨S1600000x1, .i32⟩
  | .hbm, ⟨109, _⟩ => ⟨S100000x64, .f32⟩
  | .hbm, ⟨110, _⟩ => ⟨S100000, .f32⟩
  | .hbm, ⟨111, _⟩ => ⟨S100000x1, .f32⟩
  | .hbm, ⟨112, _⟩ => ⟨S1x64, .f32⟩
  | .hbm, ⟨113, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_11 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_13 : Ref sig .tc := ⟨.hbm, 83, rfl⟩
abbrev main_v62 : Ref sig .tc := ⟨.hbm, 84, rfl⟩
abbrev main_v63 : Ref sig .tc := ⟨.hbm, 85, rfl⟩
abbrev main_c_14 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_15 : Ref sig .tc := ⟨.hbm, 94, rfl⟩
abbrev main_v71 : Ref sig .tc := ⟨.hbm, 95, rfl⟩
abbrev main_v72 : Ref sig .tc := ⟨.hbm, 96, rfl⟩
abbrev main_c_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x64_S64x128_S2000x128_1_0_0_1_n_n_wf : DotDims.WF S2000x64 S64x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v70) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v86) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S1600000x64 : Shape := ⟨2, ![1600000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S1x1600000, .i32⟩
  | .hbm, ⟨68, _⟩ => ⟨S1600000, .i32⟩
  | .hbm, ⟨69, _⟩ => ⟨S1x1600000, .i32⟩
  | .hbm, ⟨70, _⟩ => ⟨S1600000, .i32⟩
  | .hbm, ⟨71, _⟩ => ⟨S_, .f32⟩
  | .hbm, ⟨72, _⟩ => ⟨S1600000, .f32⟩
  | .hbm, ⟨73, _⟩ => ⟨S_, .f32⟩
  | .hbm, ⟨74, _⟩ => ⟨S100000, .f32⟩
  | .hbm, ⟨75, _⟩ => ⟨S1600000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000, .f32⟩
  | .hbm, ⟨81, _⟩ => ⟨S100000x64, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000, .f32⟩
  | .hbm, ⟨100, _⟩ => ⟨S1600000, .f32⟩
  | .hbm, ⟨101, _⟩ => ⟨S_, .i32⟩
  | .hbm, ⟨102, _⟩ => ⟨S1600000, .i32⟩
  | .hbm, ⟨103, _⟩ => ⟨S1600000, .i1⟩
  | .hbm, ⟨104, _⟩ => ⟨S_, .i32⟩
  | .hbm, ⟨105, _⟩ => ⟨S1600000, .i32⟩
  | .hbm, ⟨106, _⟩ => ⟨S1600000, .i32⟩
  | .hbm, ⟨107, _⟩ => ⟨S1600000, .i32⟩
  | .hbm, ⟨108, _⟩ => ⟨S1600000x1, .i32⟩
  | .hbm, ⟨109, _⟩ => ⟨S1600000x64, .f32⟩
  | .hbm, ⟨110, _⟩ => ⟨S1600000x1, .f32⟩
  | .hbm, ⟨111, _⟩ => ⟨S1600000x64, .f32⟩
  | .hbm, ⟨112, _⟩ => ⟨S1600000x64, .f32⟩
  | .hbm, ⟨113, _⟩ => ⟨S_, .f32⟩
  | .hbm, ⟨114, _⟩ => ⟨S100000x64, .f32⟩
  | .hbm, ⟨115, _⟩ => ⟨S1600000x1, .i32⟩
  | .hbm, ⟨116, _⟩ => ⟨S100000x64, .f32⟩
  | .hbm, ⟨117, _⟩ => ⟨S100000, .f32⟩
  | .hbm, ⟨118, _⟩ => ⟨S100000x1, .f32⟩
  | .hbm, ⟨119, _⟩ => ⟨S100000x64, .f32⟩
  | .hbm, ⟨120, _⟩ => ⟨S100000x64, .f32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Product1.lean ====
import proofs.«142717_j84507776516794_1_alg».proof.Proof.Gen.KernelIdeal.Frame
import Idealize.ShloMosaic.Lib.Pipeline.Value
import Idealize.ShloMosaic.PureOps.Ideal.Laws
import Idealize.ShloMosaic.Lib.ValueIdx

/-!
  Layer 1's feature transform, over the extended reals: the region multiplies a block of 2000 rows of the left
  array ([100000, 64]) by the whole right array ([64, 128]) at each of its 50 points and writes the block of 2000
  rows of the result. An entry of a block's product is the sum over the 64 shared coordinates of row entry times
  column entry (the change of float format before the product is the identity on the extended reals, so is a
  re-layout of a block to its own shape where the body has one, and the accumulator starts at zero); row `r` of the result is written by the point `r / 2000` and by no other; so after the
  region the result array is, entry by entry, the row-by-column products of the two arrays as the region found them.
-/

set_option maxRecDepth 16384

noncomputable section

namespace Cert.KernelIdeal.Product1

open Cert.KernelIdeal Cert.KernelIdeal.Gen Idealize.ShloMosaic Idealize.ShloMosaic.TcCoe Idealize.SL.Sem Idealize.ShloMosaic.ValueIdx
open Idealize.ShloMosaic.Pipeline (Dat)

/-! ## The contraction's coordinates: the left operand is read at (row, k), the right at (k, column) -/

theorem lhs_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem lhs_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem rhs_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem rhs_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The body's stored value at (p, q): the sum over the 64 shared coordinates of the left block's (p, k) entry times
    the right array's (k, q) entry. -/
theorem pay_apply (x0 : Vec Ideal S2000x64 .f32) (x1 : Vec Ideal S64x128 .f32) (p : Fin 2000) (q : Fin 128) :
    k0_pay1 (F := Ideal) x0 x1 (ix2 p q) = ∑ k : Fin 64, x0 (ix2 p k) * x1 (ix2 k q) := by
  unfold k0_pay1
  simp only [matmul, shapeCast_self]
  rw [Ideal.matmul_constant_zero_apply, ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k := funext fun a => Fin.ext (by
    match a with
    | ⟨0, _⟩ => exact lhs_0 _ _
    | ⟨1, _⟩ => exact (lhs_1 _ _).trans hk)
  have er : dot_S2000x64_S64x128_S2000x128_1_0_0_1_n_n.rhsIdx (ix2 p q) ((contrEquiv1 dot_S2000x64_S64x128_S2000x128_1_0_0_1_n_n 64 rfl rfl).symm k) = ix2 k q := funext fun a => Fin.ext (by
    match a with
    | ⟨0, _⟩ => exact (rhs_0 _ _).trans hk
    | ⟨1, _⟩ => exact rhs_1 _ _)
  rw [el, er]
  rfl

/-! ## The result array as one function of the two arrays -/

variable (V : (c : Dev nD) → (b : Ref sig .tc) → Buf (Elt Ideal) ((c : Thread nD τ).loc b))

/-- The left and the right array as the region finds them. -/
abbrev larr (c : Dev nD) : S100000x64.Idx → Elt Ideal .f32 := V c main_arg0
abbrev rarr (c : Dev nD) : S64x128.Idx → Elt Ideal .f32 := V c main_arg2

/-- Row-by-column products: entry (r, q) is the sum over k of x (r, k) · w (k, q). -/
def rowProd (x : S100000x64.Idx → Elt Ideal .f32) (w : S64x128.Idx → Elt Ideal .f32) : S100000x128.Idx → Elt Ideal .f32 :=
  fun i => ∑ k : Fin 64, x (ix2 (i 0) k) * w (ix2 k (i 1))

theorem hz : (![0, 0] : Fin 2 → Nat) = fun _ => 0 := funext fun a => by fin_cases a <;> rfl

/-- The block indices over the 50 points: the left block moves with the output block down the rows, the right array
    is one block, and the output's blocks run down the rows only. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every block row of the output is some point's. -/
theorem idx_onto : ∀ q0 : Fin 50, ∃ t : Fin cfg0.N, win0_2.index t = ![q0.val, 0] :=
  (by decide +kernel : ∀ q0 : Fin 50, ∃ t : Fin grid0.N, win0_2.index t = ![q0.val, 0])

/-- What point `t` writes back is block `t` of the row-by-column products of the two arrays. -/
theorem flushed_eq (c : Dev nD) (t : Fin cfg0.N) :
    (dat0 V c).flushed 2 t = ((cfg0.win 2).blk t).view.read (Elt Ideal) (rowProd (larr V c) (rarr V c)) := by
  show (cfg0.win 2).cut (grid0.coords t) ((dat0 V c).after 2 t) = _
  rw [after0_2]
  unfold out0_2
  rw [View.canon_unit_zero hz]
  simp only [View.ld_unit_zero (S := S2000x64) hz, View.ld_unit_zero (S := S64x128) hz]
  obtain ⟨e0, e1, e2, e3, e4, e5⟩ := idx_facts t
  funext j
  show k0_pay1 (iblk0 V c 0 t) (iblk0 V c 1 t) j = rowProd (larr V c) (rarr V c) (((cfg0.win 2).blk t).view.emb j)
  obtain ⟨p, q, rfl⟩ : ∃ (p : Fin 2000) (q : Fin 128), j = ix2 p q := ⟨j 0, j 1, eq_ix2 j⟩
  refine (pay_apply (iblk0 V c 0 t) (iblk0 V c 1 t) p q).trans ?_
  unfold rowProd
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 64 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 64 + 1 * k.val = k.val; omega
    | ⟨1, _⟩ => show win0_1.index t (1 : Fin 2) * 128 + 1 * q.val = win0_2.index t (1 : Fin 2) * 128 + 1 * q.val; omega
  have hx : iblk0 V c 0 t (ix2 p k) = larr V c (ix2 ((((cfg0.win 2).blk t).view.emb (ix2 p q)) 0) k) := by
    show larr V c (((cfg0.win 0).blk t).view.emb (ix2 p k)) = _
    rw [h0]; rfl
  have hw : iblk0 V c 1 t (ix2 k q) = rarr V c (ix2 k ((((cfg0.win 2).blk t).view.emb (ix2 p q)) 1)) := by
    show rarr V c (((cfg0.win 1).blk t).view.emb (ix2 k q)) = _
    rw [h1]; rfl
  rw [hx, hw]

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v26).slice (win0_2.rect t)).set ↔ _
  rw [View.set_slice_whole, Rect.mem_set_unit]
  exact Iff.rfl

/-- Row `r` lies in the block of the point whose block row is `r / 2000`: the blocks cover the result array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region the result array is the row-by-column products of the two arrays as the region found them. -/
theorem final (c : Dev nD) : (dat0 V c).arrAt 2 cfg0.N = rowProd (larr V c) (rarr V c) :=
  (dat0 V c).arrAt_eq_of_cover 2 _ (fun t _ => flushed_eq V c t) cover

end Cert.KernelIdeal.Product1

end
-- ==== Proof.Product2.lean ====
import proofs.«142717_j84507776516794_1_alg».proof.Proof.Gen.KernelIdeal.Frame
import Idealize.ShloMosaic.Lib.Pipeline.Value
import Idealize.ShloMosaic.PureOps.Ideal.Laws
import Idealize.ShloMosaic.Lib.ValueIdx

/-!
  Layer 2's feature transform, over the extended reals: the region multiplies a block of 2000 rows of the left
  array ([100000, 128]) by the whole right array ([128, 64]) at each of its 50 points and writes the block of 2000
  rows of the result. An entry of a block's product is the sum over the 128 shared coordinates of row entry times
  column entry (the change of float format before the product is the identity on the extended reals, so is a
  re-layout of a block to its own shape where the body has one, and the accumulator starts at zero); row `r` of the result is written by the point `r / 2000` and by no other; so after the
  region the result array is, entry by entry, the row-by-column products of the two arrays as the region found them.
-/

set_option maxRecDepth 16384

noncomputable section

namespace Cert.KernelIdeal.Product2

open Cert.KernelIdeal Cert.KernelIdeal.Gen Idealize.ShloMosaic Idealize.ShloMosaic.TcCoe Idealize.SL.Sem Idealize.ShloMosaic.ValueIdx
open Idealize.ShloMosaic.Pipeline (Dat)

/-! ## The contraction's coordinates: the left operand is read at (row, k), the right at (k, column) -/

theorem lhs_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The body's stored value at (p, q): the sum over the 128 shared coordinates of the left block's (p, k) entry times
    the right array's (k, q) entry. -/
theorem pay_apply (x0 : Vec Ideal S2000x128 .f32) (x1 : Vec Ideal S128x64 .f32) (p : Fin 2000) (q : Fin 64) :
    k2_pay1 (F := Ideal) x0 x1 (ix2 p q) = ∑ k : Fin 128, x0 (ix2 p k) * x1 (ix2 k q) := by
  unfold k2_pay1
  simp only [matmul, shapeCast_self]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhs_0 _ _).trans hk
    | ⟨1, _⟩ => exact rhs_1 _ _)
  rw [el, er]
  rfl

/-! ## The result array as one function of the two arrays -/

variable (V : (c : Dev nD) → (b : Ref sig .tc) → Buf (Elt Ideal) ((c : Thread nD τ).loc b))

/-- The left and the right array as the region finds them. -/
abbrev larr (c : Dev nD) : S100000x128.Idx → Elt Ideal .f32 := V c main_v43
abbrev rarr (c : Dev nD) : S128x64.Idx → Elt Ideal .f32 := V c main_arg4

/-- Row-by-column products: entry (r, q) is the sum over k of x (r, k) · w (k, q). -/
def rowProd (x : S100000x128.Idx → Elt Ideal .f32) (w : S128x64.Idx → Elt Ideal .f32) : S100000x64.Idx → Elt Ideal .f32 :=
  fun i => ∑ k : Fin 128, x (ix2 (i 0) k) * w (ix2 k (i 1))

theorem hz : (![0, 0] : Fin 2 → Nat) = fun _ => 0 := funext fun a => by fin_cases a <;> rfl

/-- The block indices over the 50 points: the left block moves with the output block down the rows, the right array
    is one block, and the output's blocks run down the rows only. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 49 :=
  (by decide +kernel : ∀ t : Fin grid2.N, _)

/-- Every block row of the output is some point's. -/
theorem idx_onto : ∀ q0 : Fin 50, ∃ t : Fin cfg2.N, win2_2.index t = ![q0.val, 0] :=
  (by decide +kernel : ∀ q0 : Fin 50, ∃ t : Fin grid2.N, win2_2.index t = ![q0.val, 0])

/-- What point `t` writes back is block `t` of the row-by-column products of the two arrays. -/
theorem flushed_eq (c : Dev nD) (t : Fin cfg2.N) :
    (dat2 V c).flushed 2 t = ((cfg2.win 2).blk t).view.read (Elt Ideal) (rowProd (larr V c) (rarr V c)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  obtain ⟨e0, e1, e2, e3, e4, e5⟩ := idx_facts t
  funext j
  show k2_pay1 (iblk2 V c 0 t) (iblk2 V c 1 t) j = rowProd (larr V c) (rarr V c) (((cfg2.win 2).blk t).view.emb j)
  obtain ⟨p, q, rfl⟩ : ∃ (p : Fin 2000) (q : Fin 64), j = ix2 p q := ⟨j 0, j 1, eq_ix2 j⟩
  refine (pay_apply (iblk2 V c 0 t) (iblk2 V c 1 t) p q).trans ?_
  unfold rowProd
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  have hx : iblk2 V c 0 t (ix2 p k) = larr V c (ix2 ((((cfg2.win 2).blk t).view.emb (ix2 p q)) 0) k) := by
    show larr V c (((cfg2.win 0).blk t).view.emb (ix2 p k)) = _
    rw [h0]; rfl
  have hw : iblk2 V c 1 t (ix2 k q) = rarr V c (ix2 k ((((cfg2.win 2).blk t).view.emb (ix2 p q)) 1)) := by
    show rarr V c (((cfg2.win 1).blk t).view.emb (ix2 k q)) = _
    rw [h1]; rfl
  rw [hx, hw]

/-- An index of the result array is in point `t`'s block iff each coordinate is in the block's range on its axis. -/
theorem mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v70).slice (win2_2.rect t)).set ↔ _
  rw [View.set_slice_whole, Rect.mem_set_unit]
  exact Iff.rfl

/-- Row `r` lies in the block of the point whose block row is `r / 2000`: the blocks cover the result array. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- After the region the result array is the row-by-column products of the two arrays as the region found them. -/
theorem final (c : Dev nD) : (dat2 V c).arrAt 2 cfg2.N = rowProd (larr V c) (rarr V c) :=
  (dat2 V c).arrAt_eq_of_cover 2 _ (fun t _ => flushed_eq V c t) cover

end Cert.KernelIdeal.Product2

end
-- ==== Proof.Combine1.lean ====
import proofs.«142717_j84507776516794_1_alg».proof.Proof.Gen.KernelIdeal.Frame
import Idealize.ShloMosaic.Lib.Pipeline.Value
import Idealize.ShloMosaic.Lib.ValueLayout
import Idealize.ShloMosaic.PureOps.Ideal.Laws
import Idealize.ShloMosaic.Lib.ValueIdx

/-!
  Layer 1's combination, over the extended reals: at each of its 50 points the region reads a block of 2000 rows
  of the transformed features `h` and of the aggregate `a` ([100000, 128] each), the same 2000 rows of the column `d`
  ([100000, 1]: one factor per row) and the whole bias row `b` ([1, 128]), and writes the 2000 rows of
  max (h · d + a + b) 0: the features scaled by their row's factor, plus the aggregate, plus the bias, cut below at zero. Each entry depends on the entries at the same position, on the row's
  factor and on the column's bias only; row `r` is written by the point `r / 2000` and by no other; so after the region
  the result array is that expression of the four arrays as the region found them, entry by entry.
-/

set_option maxRecDepth 16384

noncomputable section

namespace Cert.KernelIdeal.Combine1

open Cert.KernelIdeal Cert.KernelIdeal.Gen Idealize.ShloMosaic Idealize.ShloMosaic.TcCoe Idealize.SL.Sem Idealize.ShloMosaic.ValueIdx
open Idealize.ShloMosaic.Pipeline (Dat)

/-- A column [2000, 1] spread over 128 columns reads, at (p, q), the column's entry of row p. -/
theorem col_apply (v : Vec Ideal S2000x1 .f32) (h : S2000x1.Broadcasts S2000x128) (p : Fin 2000) (q : Fin 128) :
    broadcastTo S2000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The body's stored value at (p, q), from its four loaded blocks (features, row factors, aggregate, bias row). -/
theorem pay_apply (v0 : Vec Ideal S2000x128 .f32) (v2 : Vec Ideal S2000x1 .f32) (v6 : Vec Ideal S2000x128 .f32) (v9 : Vec Ideal S1x128 .f32) (p : Fin 2000) (q : Fin 128) :
    k1_pay1 (F := Ideal) v0 v2 v6 v9 (ix2 p q)
      = max (v0 (ix2 p q) * v2 (ix2 p (0 : Fin 1)) + v6 (ix2 p q) + v9 (ix2 (0 : Fin 1) q)) (FloatOps.ofBits (F := Ideal) .f32 0x00000000#32) := by
  unfold k1_pay1
  simp only [shapeCast_self]
  rw [maximumf_apply, addf_apply, addf_apply, mulf_apply, col_apply, broadcastTo_1b_ab_apply, broadcast_apply]

/-! ## The result array as one function of the four arrays -/

variable (V : (c : Dev nD) → (b : Ref sig .tc) → Buf (Elt Ideal) ((c : Thread nD τ).loc b))

/-- The four arrays as the region finds them: features, aggregate, row factors, bias row. -/
abbrev harr (c : Dev nD) : S100000x128.Idx → Elt Ideal .f32 := V c main_v26
abbrev aarr (c : Dev nD) : S100000x128.Idx → Elt Ideal .f32 := V c main_v39
abbrev darr (c : Dev nD) : S100000x1.Idx → Elt Ideal .f32 := V c main_v41
abbrev barr (c : Dev nD) : S1x128.Idx → Elt Ideal .f32 := V c main_v42

/-- Entry (r, q): max (h · d + a + b) 0: the features scaled by their row's factor, plus the aggregate, plus the bias, cut below at zero. -/
def comb (h a : S100000x128.Idx → Elt Ideal .f32) (d : S100000x1.Idx → Elt Ideal .f32) (b : S1x128.Idx → Elt Ideal .f32) :
    S100000x128.Idx → Elt Ideal .f32 :=
  fun i => max (h i * d (ix2 (i 0) (0 : Fin 1)) + a i + b (ix2 (0 : Fin 1) (i 1))) (FloatOps.ofBits (F := Ideal) .f32 0x00000000#32)

theorem hz : (![0, 0] : Fin 2 → Nat) = fun _ => 0 := funext fun a => by fin_cases a <;> rfl

/-- The block indices over the 50 points: features, aggregate and row factors move with the output block down the
    rows; the bias row is one block; the output's blocks run down the rows only. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 49 :=
  (by decide +kernel : ∀ t : Fin grid1.N, _)

/-- Every block row of the output is some point's. -/
theorem idx_onto : ∀ q0 : Fin 50, ∃ t : Fin cfg1.N, win1_4.index t = ![q0.val, 0] :=
  (by decide +kernel : ∀ q0 : Fin 50, ∃ t : Fin grid1.N, win1_4.index t = ![q0.val, 0])

/-- What point `t` writes back is block `t` of the combination of the four arrays. -/
theorem flushed_eq (c : Dev nD) (t : Fin cfg1.N) :
    (dat1 V c).flushed 4 t
      = ((cfg1.win 4).blk t).view.read (Elt Ideal) (comb (harr V c) (aarr V c) (darr V c) (barr V c)) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  obtain ⟨e0, e1, e2, e3, e4, e5, e6, e7, e8, e9⟩ := idx_facts t
  funext j
  show k1_pay1 (iblk1 V c 0 t) (iblk1 V c 2 t) (iblk1 V c 1 t) (iblk1 V c 3 t) j
    = comb (harr V c) (aarr V c) (darr V c) (barr V c) (((cfg1.win 4).blk t).view.emb j)
  obtain ⟨p, q, rfl⟩ : ∃ (p : Fin 2000) (q : Fin 128), j = ix2 p q := ⟨j 0, j 1, eq_ix2 j⟩
  refine (pay_apply (iblk1 V c 0 t) (iblk1 V c 2 t) (iblk1 V c 1 t) (iblk1 V c 3 t) p q).trans ?_
  unfold comb
  have h0 : ((cfg1.win 0).blk t).view.emb (ix2 p q) = ((cfg1.win 4).blk t).view.emb (ix2 p q) := by
    funext a; apply Fin.ext
    match a with
    | ⟨0, _⟩ => show win1_0.index t (0 : Fin 2) * 2000 + 1 * p.val = win1_4.index t (0 : Fin 2) * 2000 + 1 * p.val; omega
    | ⟨1, _⟩ => show win1_0.index t (1 : Fin 2) * 128 + 1 * q.val = win1_4.index t (1 : Fin 2) * 128 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 2000 + 1 * p.val = win1_4.index t (0 : Fin 2) * 2000 + 1 * p.val; omega
    | ⟨1, _⟩ => show win1_1.index t (1 : Fin 2) * 128 + 1 * q.val = win1_4.index t (1 : Fin 2) * 128 + 1 * q.val; omega
  have h2 : ((cfg1.win 2).blk t).view.emb (ix2 p (0 : Fin 1))
      = ix2 ((((cfg1.win 4).blk t).view.emb (ix2 p q)) 0) (0 : Fin 1) := by
    funext a; apply Fin.ext
    match a with
    | ⟨0, _⟩ => show win1_2.index t (0 : Fin 2) * 2000 + 1 * p.val = win1_4.index t (0 : Fin 2) * 2000 + 1 * p.val; omega
    | ⟨1, _⟩ => show win1_2.index t (1 : Fin 2) * 1 + 1 * 0 = 0; omega
  have h3 : ((cfg1.win 3).blk t).view.emb (ix2 (0 : Fin 1) q)
      = ix2 (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  have hh : iblk1 V c 0 t (ix2 p q) = harr V c (((cfg1.win 4).blk t).view.emb (ix2 p q)) := by
    show harr V c (((cfg1.win 0).blk t).view.emb (ix2 p q)) = _
    exact congrArg (harr V c) h0
  have ha : iblk1 V c 1 t (ix2 p q) = aarr V c (((cfg1.win 4).blk t).view.emb (ix2 p q)) := by
    show aarr V c (((cfg1.win 1).blk t).view.emb (ix2 p q)) = _
    exact congrArg (aarr V c) h1
  have hd : iblk1 V c 2 t (ix2 p (0 : Fin 1))
      = darr V c (ix2 ((((cfg1.win 4).blk t).view.emb (ix2 p q)) 0) (0 : Fin 1)) := by
    show darr V c (((cfg1.win 2).blk t).view.emb (ix2 p (0 : Fin 1))) = _
    exact congrArg (darr V c) h2
  have hb : iblk1 V c 3 t (ix2 (0 : Fin 1) q)
      = barr V c (ix2 (0 : Fin 1) ((((cfg1.win 4).blk t).view.emb (ix2 p q)) 1)) := by
    show barr V c (((cfg1.win 3).blk t).view.emb (ix2 (0 : Fin 1) q)) = _
    exact congrArg (barr V c) h3
  rw [hh, ha, hd, hb]

/-- An index of the result array is in point `t`'s block iff each coordinate is in the block's range on its axis. -/
theorem mem_blk (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v43).slice (win1_4.rect t)).set ↔ _
  rw [View.set_slice_whole, Rect.mem_set_unit]
  exact Iff.rfl

/-- Row `r` lies in the block of the point whose block row is `r / 2000`: the blocks cover the result array. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- After the region the result array is the combination of the four arrays as the region found them. -/
theorem final (c : Dev nD) :
    (dat1 V c).arrAt 4 cfg1.N = comb (harr V c) (aarr V c) (darr V c) (barr V c) :=
  (dat1 V c).arrAt_eq_of_cover 4 _ (fun t _ => flushed_eq V c t) cover

end Cert.KernelIdeal.Combine1

end
-- ==== Proof.Combine2.lean ====
import proofs.«142717_j84507776516794_1_alg».proof.Proof.Gen.KernelIdeal.Frame
import Idealize.ShloMosaic.Lib.Pipeline.Value
import Idealize.ShloMosaic.Lib.ValueLayout
import Idealize.ShloMosaic.PureOps.Ideal.Laws
import Idealize.ShloMosaic.Lib.ValueIdx

/-!
  Layer 2's combination, over the extended reals: at each of its 50 points the region reads a block of 2000 rows
  of the transformed features `h` and of the aggregate `a` ([100000, 64] each), the same 2000 rows of the column `d`
  ([100000, 1]: one factor per row) and the whole bias row `b` ([1, 64]), and writes the 2000 rows of
  h · d + a + b: the features scaled by their row's factor, plus the aggregate, plus the bias. Each entry depends on the entries at the same position, on the row's
  factor and on the column's bias only; row `r` is written by the point `r / 2000` and by no other; so after the region
  the result array is that expression of the four arrays as the region found them, entry by entry.
-/

set_option maxRecDepth 16384

noncomputable section

namespace Cert.KernelIdeal.Combine2

open Cert.KernelIdeal Cert.KernelIdeal.Gen Idealize.ShloMosaic Idealize.ShloMosaic.TcCoe Idealize.SL.Sem Idealize.ShloMosaic.ValueIdx
open Idealize.ShloMosaic.Pipeline (Dat)

/-- A column [2000, 1] spread over 64 columns reads, at (p, q), the column's entry of row p. -/
theorem col_apply (v : Vec Ideal S2000x1 .f32) (h : S2000x1.Broadcasts S2000x64) (p : Fin 2000) (q : Fin 64) :
    broadcastTo S2000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The body's stored value at (p, q), from its four loaded blocks (features, row factors, aggregate, bias row). -/
theorem pay_apply (v0 : Vec Ideal S2000x64 .f32) (v2 : Vec Ideal S2000x1 .f32) (v6 : Vec Ideal S2000x64 .f32) (v9 : Vec Ideal S1x64 .f32) (p : Fin 2000) (q : Fin 64) :
    k3_pay1 (F := Ideal) v0 v2 v6 v9 (ix2 p q)
      = v0 (ix2 p q) * v2 (ix2 p (0 : Fin 1)) + v6 (ix2 p q) + v9 (ix2 (0 : Fin 1) q) := by
  unfold k3_pay1
  simp only [shapeCast_self]
  rw [addf_apply, addf_apply, mulf_apply, col_apply, broadcastTo_1b_ab_apply]

/-! ## The result array as one function of the four arrays -/

variable (V : (c : Dev nD) → (b : Ref sig .tc) → Buf (Elt Ideal) ((c : Thread nD τ).loc b))

/-- The four arrays as the region finds them: features, aggregate, row factors, bias row. -/
abbrev harr (c : Dev nD) : S100000x64.Idx → Elt Ideal .f32 := V c main_v70
abbrev aarr (c : Dev nD) : S100000x64.Idx → Elt Ideal .f32 := V c main_v83
abbrev darr (c : Dev nD) : S100000x1.Idx → Elt Ideal .f32 := V c main_v85
abbrev barr (c : Dev nD) : S1x64.Idx → Elt Ideal .f32 := V c main_v86

/-- Entry (r, q): h · d + a + b: the features scaled by their row's factor, plus the aggregate, plus the bias. -/
def comb (h a : S100000x64.Idx → Elt Ideal .f32) (d : S100000x1.Idx → Elt Ideal .f32) (b : S1x64.Idx → Elt Ideal .f32) :
    S100000x64.Idx → Elt Ideal .f32 :=
  fun i => h i * d (ix2 (i 0) (0 : Fin 1)) + a i + b (ix2 (0 : Fin 1) (i 1))

theorem hz : (![0, 0] : Fin 2 → Nat) = fun _ => 0 := funext fun a => by fin_cases a <;> rfl

/-- The block indices over the 50 points: features, aggregate and row factors move with the output block down the
    rows; the bias row is one block; the output's blocks run down the rows only. -/
theorem idx_facts : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (1 : Fin 2) = 0
    ∧ win3_4.index t (0 : Fin 2) ≤ 49 :=
  (by decide +kernel : ∀ t : Fin grid3.N, _)

/-- Every block row of the output is some point's. -/
theorem idx_onto : ∀ q0 : Fin 50, ∃ t : Fin cfg3.N, win3_4.index t = ![q0.val, 0] :=
  (by decide +kernel : ∀ q0 : Fin 50, ∃ t : Fin grid3.N, win3_4.index t = ![q0.val, 0])

/-- What point `t` writes back is block `t` of the combination of the four arrays. -/
theorem flushed_eq (c : Dev nD) (t : Fin cfg3.N) :
    (dat3 V c).flushed 4 t
      = ((cfg3.win 4).blk t).view.read (Elt Ideal) (comb (harr V c) (aarr V c) (darr V c) (barr V c)) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz, View.ld_unit_zero (S := S1x64) hz]
  obtain ⟨e0, e1, e2, e3, e4, e5, e6, e7, e8, e9⟩ := idx_facts t
  funext j
  show k3_pay1 (iblk3 V c 0 t) (iblk3 V c 2 t) (iblk3 V c 1 t) (iblk3 V c 3 t) j
    = comb (harr V c) (aarr V c) (darr V c) (barr V c) (((cfg3.win 4).blk t).view.emb j)
  obtain ⟨p, q, rfl⟩ : ∃ (p : Fin 2000) (q : Fin 64), j = ix2 p q := ⟨j 0, j 1, eq_ix2 j⟩
  refine (pay_apply (iblk3 V c 0 t) (iblk3 V c 2 t) (iblk3 V c 1 t) (iblk3 V c 3 t) p q).trans ?_
  unfold comb
  have h0 : ((cfg3.win 0).blk t).view.emb (ix2 p q) = ((cfg3.win 4).blk t).view.emb (ix2 p q) := by
    funext a; apply Fin.ext
    match a with
    | ⟨0, _⟩ => show win3_0.index t (0 : Fin 2) * 2000 + 1 * p.val = win3_4.index t (0 : Fin 2) * 2000 + 1 * p.val; omega
    | ⟨1, _⟩ => show win3_0.index t (1 : Fin 2) * 64 + 1 * q.val = win3_4.index t (1 : Fin 2) * 64 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 2000 + 1 * p.val = win3_4.index t (0 : Fin 2) * 2000 + 1 * p.val; omega
    | ⟨1, _⟩ => show win3_1.index t (1 : Fin 2) * 64 + 1 * q.val = win3_4.index t (1 : Fin 2) * 64 + 1 * q.val; omega
  have h2 : ((cfg3.win 2).blk t).view.emb (ix2 p (0 : Fin 1))
      = ix2 ((((cfg3.win 4).blk t).view.emb (ix2 p q)) 0) (0 : Fin 1) := by
    funext a; apply Fin.ext
    match a with
    | ⟨0, _⟩ => show win3_2.index t (0 : Fin 2) * 2000 + 1 * p.val = win3_4.index t (0 : Fin 2) * 2000 + 1 * p.val; omega
    | ⟨1, _⟩ => show win3_2.index t (1 : Fin 2) * 1 + 1 * 0 = 0; omega
  have h3 : ((cfg3.win 3).blk t).view.emb (ix2 (0 : Fin 1) q)
      = ix2 (0 : Fin 1) ((((cfg3.win 4).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 64 + 1 * q.val = win3_4.index t (1 : Fin 2) * 64 + 1 * q.val; omega
  have hh : iblk3 V c 0 t (ix2 p q) = harr V c (((cfg3.win 4).blk t).view.emb (ix2 p q)) := by
    show harr V c (((cfg3.win 0).blk t).view.emb (ix2 p q)) = _
    exact congrArg (harr V c) h0
  have ha : iblk3 V c 1 t (ix2 p q) = aarr V c (((cfg3.win 4).blk t).view.emb (ix2 p q)) := by
    show aarr V c (((cfg3.win 1).blk t).view.emb (ix2 p q)) = _
    exact congrArg (aarr V c) h1
  have hd : iblk3 V c 2 t (ix2 p (0 : Fin 1))
      = darr V c (ix2 ((((cfg3.win 4).blk t).view.emb (ix2 p q)) 0) (0 : Fin 1)) := by
    show darr V c (((cfg3.win 2).blk t).view.emb (ix2 p (0 : Fin 1))) = _
    exact congrArg (darr V c) h2
  have hb : iblk3 V c 3 t (ix2 (0 : Fin 1) q)
      = barr V c (ix2 (0 : Fin 1) ((((cfg3.win 4).blk t).view.emb (ix2 p q)) 1)) := by
    show barr V c (((cfg3.win 3).blk t).view.emb (ix2 (0 : Fin 1) q)) = _
    exact congrArg (barr V c) h3
  rw [hh, ha, hd, hb]

/-- An index of the result array is in point `t`'s block iff each coordinate is in the block's range on its axis. -/
theorem mem_blk (t : Fin cfg3.N) (i : S100000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v87).slice (win3_4.rect t)).set ↔ _
  rw [View.set_slice_whole, Rect.mem_set_unit]
  exact Iff.rfl

/-- Row `r` lies in the block of the point whose block row is `r / 2000`: the blocks cover the result array. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := idx_onto ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 64 ≤ (i 1).val ∧ (i 1).val < win3_4.index t (1 : Fin 2) * 64 + 64; omega

/-- After the region the result array is the combination of the four arrays as the region found them. -/
theorem final (c : Dev nD) :
    (dat3 V c).arrAt 4 cfg3.N = comb (harr V c) (aarr V c) (darr V c) (barr V c) :=
  (dat3 V c).arrAt_eq_of_cover 4 _ (fun t _ => flushed_eq V c t) cover

end Cert.KernelIdeal.Combine2

end
-- ==== Proof.StageBridge.lean ====
import proofs.«142717_j84507776516794_1_alg».proof.Proof.Product1
import proofs.«142717_j84507776516794_1_alg».proof.Proof.Product2
import proofs.«142717_j84507776516794_1_alg».proof.Proof.Combine1
import proofs.«142717_j84507776516794_1_alg».proof.Proof.Combine2
import proofs.«142717_j84507776516794_1_alg».proof.Proof.Gen.ReferenceIdeal.Read

/-!
  The four functions the regions compute are stages of the reference, over the extended reals.
  A product region's entry (r, q) is the sum over k of left (r, k) · right (k, q), which is what the reference's
  contraction of the same two arrays is at (r, q). A combination region's entry is h · d + a + b (cut below at zero in
  the first layer); the reference adds in the other order, a + h · d, then b, and spreads the row factors and the bias
  over the array by broadcasts where the region reads a column and a row: equal by commutativity of addition, which
  holds on all of the extended reals, infinities included, so no finiteness of the inputs is used.
-/

noncomputable section

namespace Cert.Bridge

open Cert.ReferenceIdeal Cert.ReferenceIdeal.Read Idealize.ShloMosaic Idealize.ShloMosaic.TcCoe Idealize.ShloMosaic.ValueIdx

/-- Layer 1's product region computes the reference's first contraction. -/
theorem product1_eq (x : (⟨S100000x64, .f32⟩ : BufTy).Contents (Elt Ideal)) (w : (⟨S64x128, .f32⟩ : BufTy).Contents (Elt Ideal)) :
    Cert.KernelIdeal.Product1.rowProd x w = val_main_v11 (F := Ideal) x w := by
  funext i
  rw [val_main_v11_apply]
  unfold Cert.KernelIdeal.Product1.rowProd
  refine Finset.sum_congr rfl fun k _ => ?_
  have el : ix2 (i 0) k = lidx_main_v11 i k := funext fun a => by match a with | ⟨0, _⟩ => rfl | ⟨1, _⟩ => rfl
  have er : ix2 k (i 1) = ridx_main_v11 i k := funext fun a => by match a with | ⟨0, _⟩ => rfl | ⟨1, _⟩ => rfl
  exact congrArg₂ (· * ·) (congrArg _ el) (congrArg _ er)

/-- Layer 1's combination region computes the reference's first layer after its cut at zero, when the column it reads
    holds the squared factors row by row (`hd`) and the row it reads holds the bias (`hb`). -/
theorem combine1_eq (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal))
    (d : S100000x1.Idx → Elt Ideal .f32) (b : S1x128.Idx → Elt Ideal .f32)
    (hd : ∀ r : Fin 100000, d (ix2 r (0 : Fin 1)) = val_main_v40 (F := Ideal) x1 (ix1 r))
    (hb : ∀ q : Fin 128, b (ix2 (0 : Fin 1) q) = x3 (ix1 q)) :
    Cert.KernelIdeal.Combine1.comb (val_main_v11 (F := Ideal) x0 x2) (val_main_v39 (F := Ideal) x0 x1 x2) d b
      = val_main_v48 (F := Ideal) x0 x1 x2 x3 := by
  funext i
  rw [val_main_v48_apply, val_main_v47_apply, val_main_v44_apply, val_main_v43_apply, val_main_v42_apply, val_main_v41_apply,
    val_main_v46_apply, val_main_v45_apply, val_main_call0_v0_apply, val_main_call0_cst_apply]
  unfold Cert.KernelIdeal.Combine1.comb
  rw [hd (i 0), hb (i 1)]
  have e40 : idx_main_v41 (idx_main_v42 i) = ix1 (i 0) := funext fun a => by match a with | ⟨0, _⟩ => rfl
  have e45 : idx_main_v45 (idx_main_v46 i) = ix1 (i 1) := funext fun a => by match a with | ⟨0, _⟩ => rfl
  rw [e40, e45]
  simp only [Ideal.addf_def, Ideal.mulf_def, Ideal.maximumf_def]
  rw [add_comm (val_main_v39 (F := Ideal) x0 x1 x2 i)]
  rfl

/-- Layer 2's product region computes the reference's second contraction (of the first layer's result). -/
theorem product2_eq (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S128x64, .f32⟩ : BufTy).Contents (Elt Ideal)) :
    Cert.KernelIdeal.Product2.rowProd (val_main_v48 (F := Ideal) x0 x1 x2 x3) x4 = val_main_v60 (F := Ideal) x0 x1 x2 x3 x4 := by
  funext i
  rw [val_main_v60_apply]
  unfold Cert.KernelIdeal.Product2.rowProd
  refine Finset.sum_congr rfl fun k _ => ?_
  have el : ix2 (i 0) k = lidx_main_v60 i k := funext fun a => by match a with | ⟨0, _⟩ => rfl | ⟨1, _⟩ => rfl
  have er : ix2 k (i 1) = ridx_main_v60 i k := funext fun a => by match a with | ⟨0, _⟩ => rfl | ⟨1, _⟩ => rfl
  exact congrArg₂ (· * ·) (congrArg _ el) (congrArg _ er)

/-- Layer 2's combination region computes the reference's result, under the same two reading hypotheses. -/
theorem combine2_eq (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))
    (d : S100000x1.Idx → Elt Ideal .f32) (b : S1x64.Idx → Elt Ideal .f32)
    (hd : ∀ r : Fin 100000, d (ix2 r (0 : Fin 1)) = val_main_v89 (F := Ideal) x1 (ix1 r))
    (hb : ∀ q : Fin 64, b (ix2 (0 : Fin 1) q) = x5 (ix1 q)) :
    Cert.KernelIdeal.Combine2.comb (val_main_v60 (F := Ideal) x0 x1 x2 x3 x4) (val_main_v88 (F := Ideal) x0 x1 x2 x3 x4) d b
      = val_main_v96 (F := Ideal) x0 x1 x2 x3 x4 x5 := by
  funext i
  rw [val_main_v96_apply, val_main_v93_apply, val_main_v92_apply, val_main_v91_apply, val_main_v90_apply,
    val_main_v95_apply, val_main_v94_apply]
  unfold Cert.KernelIdeal.Combine2.comb
  rw [hd (i 0), hb (i 1)]
  have e89 : idx_main_v90 (idx_main_v91 i) = ix1 (i 0) := funext fun a => by match a with | ⟨0, _⟩ => rfl
  have e94 : idx_main_v94 (idx_main_v95 i) = ix1 (i 1) := funext fun a => by match a with | ⟨0, _⟩ => rfl
  rw [e89, e94]
  simp only [Ideal.addf_def, Ideal.mulf_def]
  rw [add_comm (val_main_v88 (F := Ideal) x0 x1 x2 x3 x4 i)]
  rfl

end Cert.Bridge

end
-- ==== Proof.Stages.lean ====
import proofs.«142717_j84507776516794_1_alg».proof.Proof.StageBridge
import proofs.«142717_j84507776516794_1_alg».proof.Proof.Gen.KernelIdeal.Frame
import proofs.«142717_j84507776516794_1_alg».proof.Proof.Gen.ReferenceIdeal.Read
import Idealize.ShloMosaic.Lib.StableHlo.Run
import Idealize.ShloMosaic.Lib.Pipeline.Value
import Idealize.ShloMosaic.Lib.ValueIdx

/-!
  The kernel's program, boundary by boundary, against the reference's stages, over the extended reals.
  The program is four regions among four stretches of host operations. At each of the eight boundaries the buffers a
  later item reads are named here as the reference's own stage of the six arguments: the stretches apply the very
  operations the reference applies (the degree count by a scatter of ones, its inverse square root, the two gathers'
  product as the edge coefficient, the gather of the transformed rows, their scaling and the scatter that
  aggregates them) to operands already identified, so they agree term for term; a region's result is the stage the
  previous module identifies it with; a buffer that an item neither writes nor stages keeps its contents across it.
  The last boundary's result array is the reference's result.
-/

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Idealize.ShloMosaic.ValueIdx
open Cert.ReferenceIdeal.Read

/-! ## A vector re-laid as a column or as a row reads its own entries -/

theorem col_read {α : Type} (x : (⟨1, ![100000]⟩ : Shape).Idx → α) (h : (⟨1, ![100000]⟩ : Shape).ShapeCasts ⟨2, ![100000, 1]⟩) (r : Fin 100000) :
    shapeCast (⟨2, ![100000, 1]⟩ : Shape) x h (ix2 r (0 : Fin 1)) = x (ix1 r) := by
  refine shapeCast_apply x h (ix2 r (0 : Fin 1)) (ix1 r) ?_
  rw [Shape.rowMajor_val_one, Shape.rowMajor_val_two]
  show r.val = r.val * 1 + 0
  omega
theorem row_read128 {α : Type} (x : (⟨1, ![128]⟩ : Shape).Idx → α) (h : (⟨1, ![128]⟩ : Shape).ShapeCasts ⟨2, ![1, 128]⟩) (q : Fin 128) :
    shapeCast (⟨2, ![1, 128]⟩ : Shape) x h (ix2 (0 : Fin 1) q) = x (ix1 q) := by
  refine shapeCast_apply x h (ix2 (0 : Fin 1) q) (ix1 q) ?_
  rw [Shape.rowMajor_val_one, Shape.rowMajor_val_two]
  show q.val = 0 * 128 + q.val
  omega
theorem row_read64 {α : Type} (x : (⟨1, ![64]⟩ : Shape).Idx → α) (h : (⟨1, ![64]⟩ : Shape).ShapeCasts ⟨2, ![1, 64]⟩) (q : Fin 64) :
    shapeCast (⟨2, ![1, 64]⟩ : Shape) x h (ix2 (0 : Fin 1) q) = x (ix1 q) := by
  refine shapeCast_apply x h (ix2 (0 : Fin 1) q) (ix1 q) ?_
  rw [Shape.rowMajor_val_one, Shape.rowMajor_val_two]
  show q.val = 0 * 64 + q.val
  omega

/-! ## A stretch leaves the buffers it does not write, whatever the contents it starts from -/

theorem keep0_main_arg0 (W : Valuation τ sig (Elt Ideal)) :
    StableHlo.after hostOps0 W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_main_arg1 (W : Valuation τ sig (Elt Ideal)) :
    StableHlo.after hostOps0 W (Proc.devRef .tc main_arg1) = W (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_main_arg2 (W : Valuation τ sig (Elt Ideal)) :
    StableHlo.after hostOps0 W (Proc.devRef .tc main_arg2) = W (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_main_arg3 (W : Valuation τ sig (Elt Ideal)) :
    StableHlo.after hostOps0 W (Proc.devRef .tc main_arg3) = W (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_main_arg4 (W : Valuation τ sig (Elt Ideal)) :
    StableHlo.after hostOps0 W (Proc.devRef .tc main_arg4) = W (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_main_arg5 (W : Valuation τ sig (Elt Ideal)) :
    StableHlo.after hostOps0 W (Proc.devRef .tc main_arg5) = W (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_main_v26 (W : Valuation τ sig (Elt Ideal)) :
    StableHlo.after hostOps1 W (Proc.devRef .tc main_v26) = W (Proc.devRef .tc main_v26) :=
  StableHlo.after_of_forall_not_mem (b := Proc.devRef .tc main_v26) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_main_arg1 (W : Valuation τ sig (Elt Ideal)) :
    StableHlo.after hostOps1 W (Proc.devRef .tc main_arg1) = W (Proc.devRef .tc main_arg1) :=
  StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_main_arg4 (W : Valuation τ sig (Elt Ideal)) :
    StableHlo.after hostOps1 W (Proc.devRef .tc main_arg4) = W (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_main_arg5 (W : Valuation τ sig (Elt Ideal)) :
    StableHlo.after hostOps1 W (Proc.devRef .tc main_arg5) = W (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_v43 (W : Valuation τ sig (Elt Ideal)) :
    StableHlo.after hostOps2 W (Proc.devRef .tc main_v43) = W (Proc.devRef .tc main_v43) :=
  StableHlo.after_of_forall_not_mem (b := Proc.devRef .tc main_v43) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_arg4 (W : Valuation τ sig (Elt Ideal)) :
    StableHlo.after hostOps2 W (Proc.devRef .tc main_arg4) = W (Proc.devRef .tc main_arg4) :=
  StableHlo.after_of_forall_not_mem (b := Proc.devRef .tc main_arg4) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_arg5 (W : Valuation τ sig (Elt Ideal)) :
    StableHlo.after hostOps2 W (Proc.devRef .tc main_arg5) = W (Proc.devRef .tc main_arg5) :=
  StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_v70 (W : Valuation τ sig (Elt Ideal)) :
    StableHlo.after hostOps3 W (Proc.devRef .tc main_v70) = W (Proc.devRef .tc main_v70) :=
  StableHlo.after_of_forall_not_mem (b := Proc.devRef .tc main_v70) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

variable (m : (ℓ : Loc nD τ sig) → Buf (Elt Ideal) ℓ) (ρ : Dev nD → PrngReg)

/-- The six arguments as launched: features, edges, the two weight arrays and the two biases. -/
abbrev a0 (c : Dev nD) : (⟨Cert.ReferenceIdeal.S100000x64, .f32⟩ : BufTy).Contents (Elt Ideal) := m ((c : Thread nD τ).loc main_arg0)
abbrev a1 (c : Dev nD) : (⟨Cert.ReferenceIdeal.S2x1600000, .i32⟩ : BufTy).Contents (Elt Ideal) := m ((c : Thread nD τ).loc main_arg1)
abbrev a2 (c : Dev nD) : (⟨Cert.ReferenceIdeal.S64x128, .f32⟩ : BufTy).Contents (Elt Ideal) := m ((c : Thread nD τ).loc main_arg2)
abbrev a3 (c : Dev nD) : (⟨Cert.ReferenceIdeal.S128, .f32⟩ : BufTy).Contents (Elt Ideal) := m ((c : Thread nD τ).loc main_arg3)
abbrev a4 (c : Dev nD) : (⟨Cert.ReferenceIdeal.S128x64, .f32⟩ : BufTy).Contents (Elt Ideal) := m ((c : Thread nD τ).loc main_arg4)
abbrev a5 (c : Dev nD) : (⟨Cert.ReferenceIdeal.S64, .f32⟩ : BufTy).Contents (Elt Ideal) := m ((c : Thread nD τ).loc main_arg5)

/-! ## After the first stretch: sources, targets, inverse square-root degrees and edge coefficients of layer 1 -/

theorem W1_arg0 (c : Dev nD) : W1 m ρ c (Proc.devRef .tc main_arg0) = a0 m c := (keep0_main_arg0 _).trans rfl
theorem W1_arg1 (c : Dev nD) : W1 m ρ c (Proc.devRef .tc main_arg1) = a1 m c := (keep0_main_arg1 _).trans rfl
theorem W1_arg2 (c : Dev nD) : W1 m ρ c (Proc.devRef .tc main_arg2) = a2 m c := (keep0_main_arg2 _).trans rfl
theorem W1_arg3 (c : Dev nD) : W1 m ρ c (Proc.devRef .tc main_arg3) = a3 m c := (keep0_main_arg3 _).trans rfl
theorem W1_arg4 (c : Dev nD) : W1 m ρ c (Proc.devRef .tc main_arg4) = a4 m c := (keep0_main_arg4 _).trans rfl
theorem W1_arg5 (c : Dev nD) : W1 m ρ c (Proc.devRef .tc main_arg5) = a5 m c := (keep0_main_arg5 _).trans rfl
set_option maxHeartbeats 1000000 in
theorem W1_v1 (c : Dev nD) :
    W1 m ρ c (Proc.devRef .tc main_v1) = val_main_v1 (F := Ideal) (a1 m c) := by
  show StableHlo.after hostOps0 (W0 m ρ c) (Proc.devRef .tc main_v1) = _
  after_results_simp
  rfl
set_option maxHeartbeats 1000000 in
theorem W1_v3 (c : Dev nD) :
    W1 m ρ c (Proc.devRef .tc main_v3) = val_main_v3 (F := Ideal) (a1 m c) := by
  show StableHlo.after hostOps0 (W0 m ρ c) (Proc.devRef .tc main_v3) = _
  after_results_simp
  rfl
set_option maxHeartbeats 1000000 in
theorem W1_v10 (c : Dev nD) :
    W1 m ρ c (Proc.devRef .tc main_v10) = val_main_v10 (F := Ideal) (a1 m c) := by
  show StableHlo.after hostOps0 (W0 m ρ c) (Proc.devRef .tc main_v10) = _
  after_results_simp
  rfl
set_option maxHeartbeats 1000000 in
theorem W1_v25 (c : Dev nD) :
    W1 m ρ c (Proc.devRef .tc main_v25) = val_main_v26 (F := Ideal) (a1 m c) := by
  show StableHlo.after hostOps0 (W0 m ρ c) (Proc.devRef .tc main_v25) = _
  after_results_simp
  rfl

/-! ## After the first region: the transformed features of layer 1 -/

theorem W2_v26 (c : Dev nD) : W2 m ρ c (Proc.devRef .tc main_v26) = val_main_v11 (F := Ideal) (a0 m c) (a2 m c) := by
  refine (W2_arr m ρ c 2).trans ?_
  refine (Product1.final (V1 m ρ) c).trans ?_
  show Product1.rowProd (W1 m ρ c (Proc.devRef .tc main_arg0)) (W1 m ρ c (Proc.devRef .tc main_arg2)) = _
  rw [W1_arg0, W1_arg2]
  exact Cert.Bridge.product1_eq _ _
theorem W2_v1 (c : Dev nD) : W2 m ρ c (Proc.devRef .tc main_v1) = val_main_v1 (F := Ideal) (a1 m c) := (W2_of_ne m ρ c main_v1 (by decide)).trans (W1_v1 m ρ c)
theorem W2_v3 (c : Dev nD) : W2 m ρ c (Proc.devRef .tc main_v3) = val_main_v3 (F := Ideal) (a1 m c) := (W2_of_ne m ρ c main_v3 (by decide)).trans (W1_v3 m ρ c)
theorem W2_v10 (c : Dev nD) : W2 m ρ c (Proc.devRef .tc main_v10) = val_main_v10 (F := Ideal) (a1 m c) := (W2_of_ne m ρ c main_v10 (by decide)).trans (W1_v10 m ρ c)
theorem W2_v25 (c : Dev nD) : W2 m ρ c (Proc.devRef .tc main_v25) = val_main_v26 (F := Ideal) (a1 m c) := (W2_of_ne m ρ c main_v25 (by decide)).trans (W1_v25 m ρ c)
theorem W2_arg1 (c : Dev nD) : W2 m ρ c (Proc.devRef .tc main_arg1) = a1 m c := (W2_of_ne m ρ c main_arg1 (by decide)).trans (W1_arg1 m ρ c)
theorem W2_arg3 (c : Dev nD) : W2 m ρ c (Proc.devRef .tc main_arg3) = a3 m c := (W2_of_ne m ρ c main_arg3 (by decide)).trans (W1_arg3 m ρ c)
theorem W2_arg4 (c : Dev nD) : W2 m ρ c (Proc.devRef .tc main_arg4) = a4 m c := (W2_of_ne m ρ c main_arg4 (by decide)).trans (W1_arg4 m ρ c)
theorem W2_arg5 (c : Dev nD) : W2 m ρ c (Proc.devRef .tc main_arg5) = a5 m c := (W2_of_ne m ρ c main_arg5 (by decide)).trans (W1_arg5 m ρ c)

/-! ## After the second stretch: the aggregate, the squared factors as a column, the bias as a row -/

theorem W3_v26 (c : Dev nD) : W3 m ρ c (Proc.devRef .tc main_v26) = val_main_v11 (F := Ideal) (a0 m c) (a2 m c) := (keep1_main_v26 _).trans (W2_v26 m ρ c)
theorem W3_arg1 (c : Dev nD) : W3 m ρ c (Proc.devRef .tc main_arg1) = a1 m c := (keep1_main_arg1 _).trans (W2_arg1 m ρ c)
theorem W3_arg4 (c : Dev nD) : W3 m ρ c (Proc.devRef .tc main_arg4) = a4 m c := (keep1_main_arg4 _).trans (W2_arg4 m ρ c)
theorem W3_arg5 (c : Dev nD) : W3 m ρ c (Proc.devRef .tc main_arg5) = a5 m c := (keep1_main_arg5 _).trans (W2_arg5 m ρ c)
set_option maxHeartbeats 1000000 in
theorem W3_v39 (c : Dev nD) :
    W3 m ρ c (Proc.devRef .tc main_v39) = val_main_v39 (F := Ideal) (a0 m c) (a1 m c) (a2 m c) := by
  show StableHlo.after hostOps1 (W2 m ρ c) (Proc.devRef .tc main_v39) = _
  after_results_simp
  rw [W2_v26, W2_v1, W2_v3, W2_v25]
  rfl
set_option maxHeartbeats 1000000 in
theorem W3_v41 (c : Dev nD) :
    W3 m ρ c (Proc.devRef .tc main_v41) = shapeCast S100000x1 (val_main_v40 (F := Ideal) (a1 m c)) shapeCasts_S100000_S100000x1 := by
  show StableHlo.after hostOps1 (W2 m ρ c) (Proc.devRef .tc main_v41) = _
  after_results_simp
  rw [W2_v10]
  rfl
set_option maxHeartbeats 1000000 in
theorem W3_v42 (c : Dev nD) :
    W3 m ρ c (Proc.devRef .tc main_v42) = shapeCast S1x128 (a3 m c) shapeCasts_S128_S1x128 := by
  show StableHlo.after hostOps1 (W2 m ρ c) (Proc.devRef .tc main_v42) = _
  after_results_simp
  rw [W2_arg3]
  rfl

/-! ## After the second region: layer 1's result -/

theorem W4_v43 (c : Dev nD) :
    W4 m ρ c (Proc.devRef .tc main_v43) = val_main_v48 (F := Ideal) (a0 m c) (a1 m c) (a2 m c) (a3 m c) := by
  refine (W4_arr m ρ c 4).trans ?_
  refine (Combine1.final (V3 m ρ) c).trans ?_
  show Combine1.comb (W3 m ρ c (Proc.devRef .tc main_v26)) (W3 m ρ c (Proc.devRef .tc main_v39)) (W3 m ρ c (Proc.devRef .tc main_v41)) (W3 m ρ c (Proc.devRef .tc main_v42)) = _
  rw [W3_v26, W3_v39]
  exact Cert.Bridge.combine1_eq (a0 m c) (a1 m c) (a2 m c) (a3 m c) _ _
    (fun r => by rw [W3_v41]; exact col_read _ _ r) (fun q => by rw [W3_v42]; exact row_read128 _ _ q)
theorem W4_arg1 (c : Dev nD) : W4 m ρ c (Proc.devRef .tc main_arg1) = a1 m c := (W4_of_ne m ρ c main_arg1 (by decide)).trans (W3_arg1 m ρ c)
theorem W4_arg4 (c : Dev nD) : W4 m ρ c (Proc.devRef .tc main_arg4) = a4 m c := (W4_of_ne m ρ c main_arg4 (by decide)).trans (W3_arg4 m ρ c)
theorem W4_arg5 (c : Dev nD) : W4 m ρ c (Proc.devRef .tc main_arg5) = a5 m c := (W4_of_ne m ρ c main_arg5 (by decide)).trans (W3_arg5 m ρ c)

/-! ## After the third stretch: sources, targets, inverse square-root degrees and edge coefficients of layer 2 -/

theorem W5_v43 (c : Dev nD) :
    W5 m ρ c (Proc.devRef .tc main_v43) = val_main_v48 (F := Ideal) (a0 m c) (a1 m c) (a2 m c) (a3 m c) := (keep2_main_v43 _).trans (W4_v43 m ρ c)
theorem W5_arg4 (c : Dev nD) : W5 m ρ c (Proc.devRef .tc main_arg4) = a4 m c := (keep2_main_arg4 _).trans (W4_arg4 m ρ c)
theorem W5_arg5 (c : Dev nD) : W5 m ρ c (Proc.devRef .tc main_arg5) = a5 m c := (keep2_main_arg5 _).trans (W4_arg5 m ρ c)
set_option maxHeartbeats 1000000 in
theorem W5_v45 (c : Dev nD) :
    W5 m ρ c (Proc.devRef .tc main_v45) = val_main_v50 (F := Ideal) (a1 m c) := by
  show StableHlo.after hostOps2 (W4 m ρ c) (Proc.devRef .tc main_v45) = _
  after_results_simp
  rw [W4_arg1]
  rfl
set_option maxHeartbeats 1000000 in
theorem W5_v47 (c : Dev nD) :
    W5 m ρ c (Proc.devRef .tc main_v47) = val_main_v52 (F := Ideal) (a1 m c) := by
  show StableHlo.after hostOps2 (W4 m ρ c) (Proc.devRef .tc main_v47) = _
  after_results_simp
  rw [W4_arg1]
  rfl
set_option maxHeartbeats 1000000 in
theorem W5_v54 (c : Dev nD) :
    W5 m ρ c (Proc.devRef .tc main_v54) = val_main_v59 (F := Ideal) (a1 m c) := by
  show StableHlo.after hostOps2 (W4 m ρ c) (Proc.devRef .tc main_v54) = _
  after_results_simp
  rw [W4_arg1]
  rfl
set_option maxHeartbeats 1000000 in
theorem W5_v69 (c : Dev nD) :
    W5 m ρ c (Proc.devRef .tc main_v69) = val_main_v75 (F := Ideal) (a1 m c) := by
  show StableHlo.after hostOps2 (W4 m ρ c) (Proc.devRef .tc main_v69) = _
  after_results_simp
  rw [W4_arg1]
  rfl

/-! ## After the third region: the transformed features of layer 2 -/

theorem W6_v70 (c : Dev nD) :
    W6 m ρ c (Proc.devRef .tc main_v70) = val_main_v60 (F := Ideal) (a0 m c) (a1 m c) (a2 m c) (a3 m c) (a4 m c) := by
  refine (W6_arr m ρ c 2).trans ?_
  refine (Product2.final (V5 m ρ) c).trans ?_
  show Product2.rowProd (W5 m ρ c (Proc.devRef .tc main_v43)) (W5 m ρ c (Proc.devRef .tc main_arg4)) = _
  rw [W5_v43, W5_arg4]
  exact Cert.Bridge.product2_eq _ _ _ _ _
theorem W6_v45 (c : Dev nD) : W6 m ρ c (Proc.devRef .tc main_v45) = val_main_v50 (F := Ideal) (a1 m c) := (W6_of_ne m ρ c main_v45 (by decide)).trans (W5_v45 m ρ c)
theorem W6_v47 (c : Dev nD) : W6 m ρ c (Proc.devRef .tc main_v47) = val_main_v52 (F := Ideal) (a1 m c) := (W6_of_ne m ρ c main_v47 (by decide)).trans (W5_v47 m ρ c)
theorem W6_v54 (c : Dev nD) : W6 m ρ c (Proc.devRef .tc main_v54) = val_main_v59 (F := Ideal) (a1 m c) := (W6_of_ne m ρ c main_v54 (by decide)).trans (W5_v54 m ρ c)
theorem W6_v69 (c : Dev nD) : W6 m ρ c (Proc.devRef .tc main_v69) = val_main_v75 (F := Ideal) (a1 m c) := (W6_of_ne m ρ c main_v69 (by decide)).trans (W5_v69 m ρ c)
theorem W6_arg5 (c : Dev nD) : W6 m ρ c (Proc.devRef .tc main_arg5) = a5 m c := (W6_of_ne m ρ c main_arg5 (by decide)).trans (W5_arg5 m ρ c)

/-! ## After the fourth stretch: layer 2's aggregate, squared factors as a column, bias as a row -/

theorem W7_v70 (c : Dev nD) :
    W7 m ρ c (Proc.devRef .tc main_v70) = val_main_v60 (F := Ideal) (a0 m c) (a1 m c) (a2 m c) (a3 m c) (a4 m c) := (keep3_main_v70 _).trans (W6_v70 m ρ c)
set_option maxHeartbeats 1000000 in
theorem W7_v83 (c : Dev nD) :
    W7 m ρ c (Proc.devRef .tc main_v83) = val_main_v88 (F := Ideal) (a0 m c) (a1 m c) (a2 m c) (a3 m c) (a4 m c) := by
  show StableHlo.after hostOps3 (W6 m ρ c) (Proc.devRef .tc main_v83) = _
  after_results_simp
  rw [W6_v70, W6_v45, W6_v47, W6_v69]
  rfl
set_option maxHeartbeats 1000000 in
theorem W7_v85 (c : Dev nD) :
    W7 m ρ c (Proc.devRef .tc main_v85) = shapeCast S100000x1 (val_main_v89 (F := Ideal) (a1 m c)) shapeCasts_S100000_S100000x1 := by
  show StableHlo.after hostOps3 (W6 m ρ c) (Proc.devRef .tc main_v85) = _
  after_results_simp
  rw [W6_v54]
  rfl
set_option maxHeartbeats 1000000 in
theorem W7_v86 (c : Dev nD) :
    W7 m ρ c (Proc.devRef .tc main_v86) = shapeCast S1x64 (a5 m c) shapeCasts_S64_S1x64 := by
  show StableHlo.after hostOps3 (W6 m ρ c) (Proc.devRef .tc main_v86) = _
  after_results_simp
  rw [W6_arg5]
  rfl

/-! ## After the fourth region: the result -/

/-- The result array at the last boundary is the reference's result of the six arguments. -/
theorem W8_v87 (c : Dev nD) :
    W8 m ρ c (Proc.devRef .tc main_v87)
      = val_main_v96 (F := Ideal) (a0 m c) (a1 m c) (a2 m c) (a3 m c) (a4 m c) (a5 m c) := by
  refine (W8_arr m ρ c 4).trans ?_
  refine (Combine2.final (V7 m ρ) c).trans ?_
  show Combine2.comb (W7 m ρ c (Proc.devRef .tc main_v70)) (W7 m ρ c (Proc.devRef .tc main_v83)) (W7 m ρ c (Proc.devRef .tc main_v85)) (W7 m ρ c (Proc.devRef .tc main_v86)) = _
  rw [W7_v70, W7_v83]
  exact Cert.Bridge.combine2_eq (a0 m c) (a1 m c) (a2 m c) (a3 m c) (a4 m c) (a5 m c) _ _
    (fun r => by rw [W7_v85]; exact col_read _ _ r) (fun q => by rw [W7_v86]; exact row_read64 _ _ q)

end Cert.KernelIdeal.Stages

end
-- ==== Proof.lean ====
/-
  A two-layer graph convolution, kernel against reference, over the extended reals.

  Each layer computes, from node features `x` ([100000, d_in]), an edge list ([2, 1600000]: sources and targets), a weight
  array `W` and a bias `b`:  h = x · W;  deg = 1 + the number of edges into each node;  dinv = deg^(-1/2);
  agg = for each node, the sum over its incoming edges of h at the edge's source, times dinv at the source, times
  dinv at the target;  out = agg + h · dinv² + b — and the first layer's result is cut below at zero before it feeds
  the second.
  The kernel's program computes h in a region that multiplies 2000 rows at a time, and out in a region that
  combines 2000 rows at a time as h · dinv² + agg + b; the degree count, the inverse square roots, the gathers and the
  scatter that aggregates are host operations, the very ones the reference applies. So the two programs differ in
  three places only: a block of rows of a product against the whole product (one sum over the shared coordinate,
  entry by entry, whichever rows it is computed with); a change of float format before the product (the identity
  on the extended reals); and the order of one addition, h · dinv² + agg against agg + h · dinv² (commutativity, which
  holds on all of the extended reals: the finiteness of the inputs is never used).
  `Proof/Product1`, `Product2`, `Combine1`, `Combine2` state what each region leaves in its result array as one
  function of the arrays it reads; `Proof/StageBridge` identifies those four functions with stages of the reference;
  `Proof/Stages` walks the program's eight boundaries and names every buffer a later item reads as the reference's
  stage of the six arguments, ending with the result; `Proof/KernelRunNamed` is the program's run with the result
  array named. The frames of the two kernel programs are the generated ones; the reference's frame and result are its
  generated run.
-/
import proofs.«142717_j84507776516794_1_alg».proof.Defs
import proofs.«142717_j84507776516794_1_alg».proof.Proof.Gen.Kernel
import proofs.«142717_j84507776516794_1_alg».proof.Proof.Gen.Kernel.Frame
import proofs.«142717_j84507776516794_1_alg».proof.Proof.Gen.KernelIdeal
import proofs.«142717_j84507776516794_1_alg».proof.Proof.Gen.KernelIdeal.Frame
import proofs.«142717_j84507776516794_1_alg».proof.Proof.Gen.ReferenceIdeal
import proofs.«142717_j84507776516794_1_alg».proof.Proof.Gen.ReferenceIdeal.Run
import proofs.«142717_j84507776516794_1_alg».proof.Proof.Gen.ReferenceIdeal.Read
import proofs.«142717_j84507776516794_1_alg».proof.Proof.Gen.Pre_finite_inputs
import proofs.«142717_j84507776516794_1_alg».proof.Proof.KernelRunNamed
import proofs.«142717_j84507776516794_1_alg».proof.Proof.Stages
import Idealize.ShloMosaic.Adequacy
import Idealize.ShloMosaic.Init

noncomputable section

namespace Cert.Proof

open Idealize.ShloMosaic Idealize.SL.Sem

/-- Both kernel programs run to the end with their arguments unchanged: the generated frames. -/
theorem frame_kernel : Cert.frame_Kernel := fun m ρ _ => Cert.Kernel.Gen.frame m ρ
theorem frame_kernelIdeal : Cert.frame_KernelIdeal := fun m ρ _ => Cert.KernelIdeal.Gen.frame m ρ

/-- The reference runs to the end with its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- From memories that agree on the six arguments both programs end with the same result array: the reference's
    result stage of those arguments. The kernel's program ends there by the walk through its boundaries, the
    reference by its run. -/
theorem algebraic : Cert.algebraic_KernelIdeal_ReferenceIdeal := by
  intro m ρ m' ρ' _ hagree
  refine ⟨fun c => Cert.ReferenceIdeal.Read.val_main_v96 (F := Ideal)
      (Cert.KernelIdeal.Stages.a0 m c) (Cert.KernelIdeal.Stages.a1 m c) (Cert.KernelIdeal.Stages.a2 m c)
      (Cert.KernelIdeal.Stages.a3 m c) (Cert.KernelIdeal.Stages.a4 m c) (Cert.KernelIdeal.Stages.a5 m c), ?_, ?_⟩
  · exact (θ_run Cert.KernelIdeal.defs _ _).mono
      (fun r h c => ⟨(h c).1.trans (Cert.KernelIdeal.Stages.W8_v87 m ρ c), (h c).2⟩)
      (Cert.KernelIdeal.Named.run_named m ρ)
  · refine (θ_run Cert.ReferenceIdeal.defs _ _).mono (fun r h c => ⟨?_, (h c).2⟩)
      (Cert.ReferenceIdeal.Value.run (F := Ideal) m' ρ')
    obtain ⟨e0, e1, e2, e3, e4, e5⟩ := hagree c
    rw [(h c).1, Cert.ReferenceIdeal.Read.val_main_v96_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
